-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S512x128 : Shape := ⟨2, ![512, 128]⟩
abbrev S512 : Shape := ⟨1, ![512]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512x128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x128 .f32 := Host.absf main_arg5
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S1600000 .f32) (main_arg3 : FVec F S512x128 .f32) (main_arg4 : FVec F S512 .f32) (main_arg5 : FVec F S512x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S512x128 : Shape := ⟨2, ![512, 128]⟩
abbrev S512 : Shape := ⟨1, ![512]⟩
abbrev S1x1600000 : Shape := ⟨2, ![1, 1600000]⟩
abbrev S1600000x1 : Shape := ⟨2, ![1600000, 1]⟩
abbrev S_ : Shape := ⟨0, ![]⟩
abbrev S1600000x128 : Shape := ⟨2, ![1600000, 128]⟩
abbrev S128x512 : Shape := ⟨2, ![128, 512]⟩
abbrev S1x512 : Shape := ⟨2, ![1, 512]⟩
abbrev S100000x512 : Shape := ⟨2, ![100000, 512]⟩
abbrev S2000x128 : Shape := ⟨2, ![2000, 128]⟩
abbrev S2000x512 : Shape := ⟨2, ![2000, 512]⟩

abbrev nBuf : Space → Nat
  | .hbm => 30
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S512x128, .f32⟩
  | .hbm, ⟨4, _⟩ => ⟨S512, .f32⟩
  | .hbm, ⟨5, _⟩ => ⟨S512x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S1600000x1, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S128x512, .f32⟩
  | .hbm, ⟨27, _⟩ => ⟨S128x512, .f32⟩
  | .hbm, ⟨28, _⟩ => ⟨S1x512, .f32⟩
  | .hbm, ⟨29, _⟩ => ⟨S100000x512, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x512, .f32⟩
  | .local _ .vmem, ⟨5, _⟩ => ⟨S128x512, .f32⟩
  | .local _ .vmem, ⟨6, _⟩ => ⟨S1x512, .f32⟩
  | .local _ .vmem, ⟨7, _⟩ => ⟨S2000x512, .f32⟩
  | .local _ .vmem, ⟨8, _⟩ => ⟨S2000x512, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S512x128_S128x512_1_0 : S512x128.Transposes [1, 0] S128x512
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x512_S2000x512_1_0_0_1_n_n_wf : DotDims.WF S2000x128 S128x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S100000x512.size a
  hwx0_5 : ∀ i : grid0.Coords, EltTy.bits .f32 = 32 ∨ (Rect.block (s := S100000x512) S2000x512.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf

abbrev win0_0 : Pipeline.Window sig grid0 :=
  Pipeline.Window.ofSpec (Memref.whole main_v16) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S512x128 : Shape := ⟨2, ![512, 128]⟩
abbrev S512 : Shape := ⟨1, ![512]⟩
abbrev S1x1600000 : Shape := ⟨2, ![1, 1600000]⟩
abbrev S1600000x1 : Shape := ⟨2, ![1600000, 1]⟩
abbrev S_ : Shape := ⟨0, ![]⟩
abbrev S1600000x128 : Shape := ⟨2, ![1600000, 128]⟩
abbrev S100000x512 : Shape := ⟨2, ![100000, 512]⟩
abbrev S1x512 : Shape := ⟨2, ![1, 512]⟩

abbrev nBuf : Space → Nat
  | .hbm => 32
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S512x128, .f32⟩
  | .hbm, ⟨4, _⟩ => ⟨S512, .f32⟩
  | .hbm, ⟨5, _⟩ => ⟨S512x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S1600000x1, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S100000x512, .f32⟩
  | .hbm, ⟨27, _⟩ => ⟨S1x512, .f32⟩
  | .hbm, ⟨28, _⟩ => ⟨S100000x512, .f32⟩
  | .hbm, ⟨29, _⟩ => ⟨S100000x512, .f32⟩
  | .hbm, ⟨30, _⟩ => ⟨S100000x512, .f32⟩
  | .hbm, ⟨31, _⟩ => ⟨S100000x512, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S512x128_S100000x512_1_1_0_0_n_n_wf : DotDims.WF S100000x128 S512x128 S100000x512 [1] [1] [0] [0] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S512x128_S100000x512_1_1_0_0_n_n : DotDims S100000x128 S512x128 S100000x512 where
  lhsContracting := [1]
  rhsContracting := [1]
  lhsNonContracting := [0]
  rhsNonContracting := [0]
  lhsBatch := []
  rhsBatch := []
  wf := dot_S100000x128_S512x128_S100000x512_1_1_0_0_n_n_wf

class Facts : Prop extends Facts₀ where

variable [Facts]
-- ==== Proof.LinearLayer.lean ====
/-
  What both programs compute once the neighbourhood aggregate is there. For the aggregate `agg` and the node
  features `x` (both 100000 × 128), the two weight matrices (512 × 128, one row per output feature) and the
  bias (512),

      out[n, o] = (∑ₖ agg[n, k] · W_l[o, k] + b[o]) + ∑ₖ x[n, k] · W_r[o, k]

  on the extended reals. The reference groups the three terms this way; the kernel adds the two products first
  and the bias last. Addition of extended reals is commutative and associative (with `⊥ + ⊤ = ⊥` it is still a
  commutative monoid), so the two groupings agree at every input, infinite ones included: no finiteness is used.
-/
import Idealize.ShloMosaic.PureOps.Ideal
import Idealize.ShloMosaic.Lib.ValueIdx

noncomputable section

open scoped BigOperators

namespace Cert.GraphConv

open Idealize.ShloMosaic Idealize.ShloMosaic.ValueIdx

/-- The layer at node `n` and output feature `o`, in the reference's grouping: the aggregate's product, then the
    bias, then the node's own product. -/
def linAt (agg x : FVec Ideal ⟨2, ![100000, 128]⟩ .f32) (wl wr : FVec Ideal ⟨2, ![512, 128]⟩ .f32)
    (b : FVec Ideal ⟨1, ![512]⟩ .f32) (n : Fin 100000) (o : Fin 512) : EReal :=
  (∑ k : Fin 128, agg (ix2 n k) * wl (ix2 o k) + b (ix1 o)) + ∑ k : Fin 128, x (ix2 n k) * wr (ix2 o k)

/-- The whole output array: entry `(n, o)` is `linAt … n o`. -/
def lin (agg x : FVec Ideal ⟨2, ![100000, 128]⟩ .f32) (wl wr : FVec Ideal ⟨2, ![512, 128]⟩ .f32)
    (b : FVec Ideal ⟨1, ![512]⟩ .f32) : FVec Ideal ⟨2, ![100000, 512]⟩ .f32 :=
  fun i => linAt agg x wl wr b (i 0) (i 1)

theorem lin_apply (agg x : FVec Ideal ⟨2, ![100000, 128]⟩ .f32) (wl wr : FVec Ideal ⟨2, ![512, 128]⟩ .f32)
    (b : FVec Ideal ⟨1, ![512]⟩ .f32) (i : (⟨2, ![100000, 512]⟩ : Shape).Idx) :
    lin agg x wl wr b i = linAt agg x wl wr b (i 0) (i 1) := rfl

/-- The kernel's grouping — both products added, the bias last — is the same extended real. -/
theorem products_then_bias (agg x : FVec Ideal ⟨2, ![100000, 128]⟩ .f32) (wl wr : FVec Ideal ⟨2, ![512, 128]⟩ .f32)
    (b : FVec Ideal ⟨1, ![512]⟩ .f32) (n : Fin 100000) (o : Fin 512) :
    (∑ k : Fin 128, agg (ix2 n k) * wl (ix2 o k) + ∑ k : Fin 128, x (ix2 n k) * wr (ix2 o k)) + b (ix1 o)
      = linAt agg x wl wr b n o := by
  unfold linAt
  exact add_right_comm _ _ _

end Cert.GraphConv

end
-- ==== Proof.BlockEntry.lean ====
/-
  One entry of what the kernel body stores at a grid point, as extended reals. The body loads a 2000 × 128 block
  of the aggregate and of the node features, the two transposed weight matrices (128 × 512) and the bias as one
  row (1 × 512); the casts to bf16 are the identity on extended reals, each `tpu.matmul` accumulates into the
  zero splat, and the bias row is broadcast down the 2000 rows. So entry `(r, o)` of the stored block is

      (∑ₖ a[r, k] · wl[k, o] + ∑ₖ xb[r, k] · wr[k, o]) + b[0, o].

  The contraction of a product is over the left operand's axis 1 and the right operand's axis 0; the sum over the
  contraction's index set is re-indexed to `Fin 128` through its one coordinate.
-/
import proofs.«131312_j54778012893227_1_alg».proof.Proof.Gen.KernelIdeal.Skeleton
import proofs.«131312_j54778012893227_1_alg».proof.Proof.LinearLayer
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.GraphConv.Block

open Cert.KernelIdeal Cert.KernelIdeal.Gen Idealize.ShloMosaic Idealize.ShloMosaic.ValueIdx

/-! ## The product's operand indices, axis by axis -/

/-- The left operand's row is the output's row. -/
theorem lhs_row (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
/-- The left operand's column is the contraction's coordinate. -/
theorem lhs_contr (i : S2000x512.Idx) (q : dot_S2000x128_S128x512_S2000x512_1_0_0_1_n_n.contr.Idx) :
    (dot_S2000x128_S128x512_S2000x512_1_0_0_1_n_n.lhsIdx i q 1).val = (q ⟨0, by decide⟩).val :=
  dot_S2000x128_S128x512_S2000x512_1_0_0_1_n_n.lhsIdx_val_of_single rfl i q
/-- The right operand's row is the contraction's coordinate. -/
theorem rhs_contr (i : S2000x512.Idx) (q : dot_S2000x128_S128x512_S2000x512_1_0_0_1_n_n.contr.Idx) :
    (dot_S2000x128_S128x512_S2000x512_1_0_0_1_n_n.rhsIdx i q 0).val = (q ⟨0, by decide⟩).val :=
  dot_S2000x128_S128x512_S2000x512_1_0_0_1_n_n.rhsIdx_val_of_single rfl i q
/-- The right operand's column is the output's column. -/
theorem rhs_col (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-! ## One product into the zero accumulator -/

/-- A 2000 × 128 by 128 × 512 product accumulated into zero, at `(r, o)`: the sum over `k` of `l[r, k] · w[k, o]`. -/
theorem product_entry {φ₁ φ₂ : FTy} (l : FVec Ideal S2000x128 φ₁) (w : FVec Ideal S128x512 φ₂) (r : Fin 2000) (o : Fin 512) :
    matmul dot_S2000x128_S128x512_S2000x512_1_0_0_1_n_n none l w (constant S2000x512 .f32 0x00000000#32) (ix2 r o)
      = ∑ k : Fin 128, l (ix2 r k) * w (ix2 k o) := by
  simp only [matmul]
  rw [Ideal.matmul_constant_zero_apply, ← Equiv.sum_comp (contrEquiv1 dot_S2000x128_S128x512_S2000x512_1_0_0_1_n_n 128 rfl rfl).symm]
  refine Finset.sum_congr rfl fun k _ => ?_
  have hk := contrEquiv1_symm_val dot_S2000x128_S128x512_S2000x512_1_0_0_1_n_n 128 rfl rfl k
  have el : dot_S2000x128_S128x512_S2000x512_1_0_0_1_n_n.lhsIdx (ix2 r o) ((contrEquiv1 dot_S2000x128_S128x512_S2000x512_1_0_0_1_n_n 128 rfl rfl).symm k) = ix2 r k := funext fun a => Fin.ext (by
    match a with
    | ⟨0, _⟩ => exact lhs_row _ _
    | ⟨1, _⟩ => exact (lhs_contr _ _).trans hk)
  have er : dot_S2000x128_S128x512_S2000x512_1_0_0_1_n_n.rhsIdx (ix2 r o) ((contrEquiv1 dot_S2000x128_S128x512_S2000x512_1_0_0_1_n_n 128 rfl rfl).symm k) = ix2 k o := funext fun a => Fin.ext (by
    match a with
    | ⟨0, _⟩ => exact (rhs_contr _ _).trans hk
    | ⟨1, _⟩ => exact rhs_col _ _)
  rw [el, er]

/-! ## The stored block at an entry -/

/-- Entry `(r, o)` of the block the body stores: both products, then the bias row's entry `o`. -/
theorem stored_entry (a xb : Vec Ideal S2000x128 .f32) (wl wr : Vec Ideal S128x512 .f32) (b : Vec Ideal S1x512 .f32)
    (r : Fin 2000) (o : Fin 512) :
    k0_pay1 (F := Ideal) a xb wl wr b (ix2 r o)
      = (∑ k : Fin 128, a (ix2 r k) * wl (ix2 k o) + ∑ k : Fin 128, xb (ix2 r k) * wr (ix2 k o)) + b (ix2 (0 : Fin 1) o) := by
  unfold k0_pay1
  simp only [shapeCast_self]
  rw [addf_apply, addf_apply, product_entry, product_entry, broadcastTo_1b_ab_apply]
  rfl

/-- So when the loaded blocks are: rows of the aggregate and of the features at node `n` (row `r` of the point's
    block), the weight matrices transposed, and the bias as a row, the stored entry is the linear layer at `(n, o)`:
    the two groupings of the three terms agree on the extended reals. -/
theorem stored_entry_eq_layer (agg x : FVec Ideal ⟨2, ![100000, 128]⟩ .f32) (Wl Wr : FVec Ideal ⟨2, ![512, 128]⟩ .f32)
    (B : FVec Ideal ⟨1, ![512]⟩ .f32)
    (a xb : Vec Ideal S2000x128 .f32) (wl wr : Vec Ideal S128x512 .f32) (b : Vec Ideal S1x512 .f32)
    (r : Fin 2000) (o : Fin 512) (n : Fin 100000)
    (ha : ∀ k : Fin 128, a (ix2 r k) = agg (ix2 n k)) (hx : ∀ k : Fin 128, xb (ix2 r k) = x (ix2 n k))
    (hwl : ∀ k : Fin 128, wl (ix2 k o) = Wl (ix2 o k)) (hwr : ∀ k : Fin 128, wr (ix2 k o) = Wr (ix2 o k))
    (hb : b (ix2 (0 : Fin 1) o) = B (ix1 o)) :
    k0_pay1 (F := Ideal) a xb wl wr b (ix2 r o) = Cert.GraphConv.linAt agg x Wl Wr B n o := by
  rw [stored_entry]
  simp only [ha, hx, hwl, hwr, hb]
  exact Cert.GraphConv.products_then_bias agg x Wl Wr B n o

end Cert.GraphConv.Block

end
-- ==== Proof.HostArrays.lean ====
/-
  What the host operations before the call leave in the arrays the call stages: the neighbourhood aggregate as one
  term of the features, the edge list and the edge weights; each weight matrix transposed (`Wᵀ[k, o] = W[o, k]`);
  and the bias as a 1 × 512 row. Each is the composition of the operations that write it, read off the run of the
  host prefix.
-/
import proofs.«131312_j54778012893227_1_alg».proof.Proof.Gen.KernelIdeal.Frame
import Idealize.ShloMosaic.Lib.StableHlo.Run
import Idealize.ShloMosaic.PureOps.Ideal
import Idealize.ShloMosaic.Lib.Tactic

noncomputable section

open Idealize.ShloMosaic Idealize.ShloMosaic.TcCoe Idealize.SL.Sem

namespace Cert.GraphConv.Kernel

open Cert.KernelIdeal Cert.KernelIdeal.Gen

variable (m : (ℓ : Loc nD τ sig) → Buf (Elt Ideal) ℓ)

/-! ## What the host operations before the call leave -/

/-- The neighbourhood aggregate as a term of the features, the edge list and the edge weights: negative source
    indices wrapped, the source rows gathered and scaled by the edge weight, then added into zero at the
    destination rows. -/
def aggOf (x0 : FVec Ideal S100000x128 .f32) (x1 : IVec S2x1600000 32) (x2 : FVec Ideal S1600000 .f32) : FVec Ideal S100000x128 .f32 :=
  Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (shapeCast _ (extractStridedSlice S1x1600000 ![1, 0] x1 slices_S2x1600000_S1x1600000_1_0) shapeCasts_S1x1600000_S1600000)) (mulf (broadcastInDim S1600000x128 ![0, 1] bcast_S1600000x1_S1600000x128_0_1 (broadcastInDim S1600000x1 ![0] bcast_S1600000_S1600000x1_0 x2)) (Host.gather gather_S100000x128_S1600000x1_S1600000x128_1_0_n_n_0_1_1128 x0 (broadcastInDim S1600000x1 ![0] bcast_S1600000_S1600000x1_0 (select (cmpi .slt (shapeCast _ (extractStridedSlice S1x1600000 ![0, 0] x1 slices_S2x1600000_S1x1600000_0_0) shapeCasts_S1x1600000_S1600000) (broadcastInDim S1600000 ![] bcast_S_S1600000 (constantI S_ 32 0#32))) (addi (shapeCast _ (extractStridedSlice S1x1600000 ![0, 0] x1 slices_S2x1600000_S1x1600000_0_0) shapeCasts_S1x1600000_S1600000) (broadcastInDim S1600000 ![] bcast_S_S1600000 (constantI S_ 32 100000#32))) (shapeCast _ (extractStridedSlice S1x1600000 ![0, 0] x1 slices_S2x1600000_S1x1600000_0_0) shapeCasts_S1x1600000_S1600000)))))

set_option maxHeartbeats 2000000 in
theorem agg_eq (c : Dev nD) : (V m c main_v16 : S100000x128.Idx → EReal)
    = aggOf (m ((c : Thread nD τ).loc main_arg0)) (m ((c : Thread nD τ).loc main_arg1)) (m ((c : Thread nD τ).loc main_arg2)) := by
  unfold aggOf
  dsimp only [Gen.V, Gen.hostOps0]; after_results_simp <;> rfl

theorem wl_transposed (c : Dev nD) : (V m c main_v17 : S128x512.Idx → EReal)
    = transpose S128x512 [1, 0] (m ((c : Thread nD τ).loc main_arg3)) transposes_S512x128_S128x512_1_0 := by
  dsimp only [Gen.V, Gen.hostOps0]; after_results <;> rfl

theorem wr_transposed (c : Dev nD) : (V m c main_v18 : S128x512.Idx → EReal)
    = transpose S128x512 [1, 0] (m ((c : Thread nD τ).loc main_arg5)) transposes_S512x128_S128x512_1_0 := by
  dsimp only [Gen.V, Gen.hostOps0]; after_results <;> rfl

theorem bias_row (c : Dev nD) : (V m c main_v19 : S1x512.Idx → EReal)
    = shapeCast S1x512 (m ((c : Thread nD τ).loc main_arg4)) shapeCasts_S512_S1x512 := by
  dsimp only [Gen.V, Gen.hostOps0]; after_results <;> rfl

end Cert.GraphConv.Kernel

end
-- ==== Proof.KernelArray.lean ====
/-
  The array the kernel leaves, as one function of the arguments. The grid has 50 points; point `t` stages rows
  `2000 t … 2000 t + 1999` of the aggregate and of the node features, the whole of the two transposed weight
  matrices and of the bias row, and writes rows `2000 t … 2000 t + 1999` of the output. What it writes is the
  linear layer of `LinearLayer.lean` read through those rows (an entry of the stored block is an entry of the layer:
  `BlockEntry.lean`), the 50 row blocks cover the 100000 rows (row `n` lies in block `n / 2000`), so the output
  array ends holding the layer everywhere. The aggregate, the transposes and the bias row are what the host
  operations before the call leave: `W_lᵀ[k, o] = W_l[o, k]`, the row `[0, o]` of the reshaped bias is `b[o]`, and
  the aggregate is the scatter-add of the weighted gathered rows, kept here as one term of the arguments.
-/
import proofs.«131312_j54778012893227_1_alg».proof.Proof.Gen.KernelIdeal.Value
import proofs.«131312_j54778012893227_1_alg».proof.Proof.BlockEntry
import proofs.«131312_j54778012893227_1_alg».proof.Proof.HostArrays
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.GraphConv.Kernel

open Cert.KernelIdeal Cert.KernelIdeal.Gen Cert.KernelIdeal.Value

variable (m : (ℓ : Loc nD τ sig) → Buf (Elt Ideal) ℓ) (ρ : Dev nD → PrngReg)

theorem origin : (![0, 0] : Fin 2 → Nat) = fun _ => 0 := funext fun a => by fin_cases a <;> rfl

/-! ## The output array -/

/-- The linear layer of the aggregate the call finds and of the arguments. -/
abbrev result (c : Dev nD) : Buf (Elt Ideal) ((c : Thread nD τ).loc main_v20) :=
  Cert.GraphConv.lin (V m c main_v16) (m ((c : Thread nD τ).loc main_arg0)) (m ((c : Thread nD τ).loc main_arg3)) (m ((c : Thread nD τ).loc main_arg5)) (m ((c : Thread nD τ).loc main_arg4))

/-- The block indices over the grid: the row-blocked windows (aggregate, features, output) sit at row block `t`,
    column block 0; the whole-array windows (both weight matrices, the bias row) at block (0, 0). -/
theorem block_indices : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Cutting an uncut block changes nothing: entry `(r, o)` of the cut is entry `(r, o)`. -/
theorem cut_entry (t : Fin cfg0.N) (X : Vec Ideal S2000x512 .f32) (r : Fin 2000) (o : Fin 512) :
    (cfg0.win 5).cut (grid0.coords t) X (ix2 r o) = X (ix2 r o) := rfl

/-- Entry `(r, k)` of point `t`'s block of the aggregate's window is the array's entry at row `2000·(row block) + r`. -/
theorem agg_block_entry (t : Fin cfg0.N) (A : FVec Ideal S100000x128 .f32) (r : Fin 2000) (k : Fin 128) (n : Fin 100000)
    (hn : n.val = win0_0.index t (0 : Fin 2) * 2000 + 1 * r.val) (h1 : win0_0.index t (1 : Fin 2) = 0) :
    ((cfg0.win 0).blk t).view.read (Elt Ideal) A (ix2 r k) = A (ix2 n k) := by
  rw [View.read_apply, cast_eq]
  congr 1
  funext a; apply Fin.ext
  match a with
  | ⟨0, _⟩ => show win0_0.index t (0 : Fin 2) * 2000 + 1 * r.val = n.val; omega
  | ⟨1, _⟩ => show win0_0.index t (1 : Fin 2) * 128 + 1 * k.val = k.val; omega

/-- The same for the node features' window. -/
theorem x_block_entry (t : Fin cfg0.N) (A : FVec Ideal S100000x128 .f32) (r : Fin 2000) (k : Fin 128) (n : Fin 100000)
    (hn : n.val = win0_1.index t (0 : Fin 2) * 2000 + 1 * r.val) (h1 : win0_1.index t (1 : Fin 2) = 0) :
    ((cfg0.win 1).blk t).view.read (Elt Ideal) A (ix2 r k) = A (ix2 n k) := by
  rw [View.read_apply, cast_eq]
  congr 1
  funext a; apply Fin.ext
  match a with
  | ⟨0, _⟩ => show win0_1.index t (0 : Fin 2) * 2000 + 1 * r.val = n.val; omega
  | ⟨1, _⟩ => show win0_1.index t (1 : Fin 2) * 128 + 1 * k.val = k.val; omega

/-- A window that stages its whole array at block (0, 0) reads the array itself: the first weight matrix … -/
theorem wl_block_entry (t : Fin cfg0.N) (A : FVec Ideal S128x512 .f32) (k : Fin 128) (o : Fin 512)
    (h0 : win0_2.index t (0 : Fin 2) = 0) (h1 : win0_2.index t (1 : Fin 2) = 0) :
    ((cfg0.win 2).blk t).view.read (Elt Ideal) A (ix2 k o) = A (ix2 k o) := by
  rw [View.read_apply, cast_eq]
  congr 1
  funext a; apply Fin.ext
  match a with
  | ⟨0, _⟩ => show win0_2.index t (0 : Fin 2) * 128 + 1 * k.val = k.val; omega
  | ⟨1, _⟩ => show win0_2.index t (1 : Fin 2) * 512 + 1 * o.val = o.val; omega

/-- … the second … -/
theorem wr_block_entry (t : Fin cfg0.N) (A : FVec Ideal S128x512 .f32) (k : Fin 128) (o : Fin 512)
    (h0 : win0_3.index t (0 : Fin 2) = 0) (h1 : win0_3.index t (1 : Fin 2) = 0) :
    ((cfg0.win 3).blk t).view.read (Elt Ideal) A (ix2 k o) = A (ix2 k o) := by
  rw [View.read_apply, cast_eq]
  congr 1
  funext a; apply Fin.ext
  match a with
  | ⟨0, _⟩ => show win0_3.index t (0 : Fin 2) * 128 + 1 * k.val = k.val; omega
  | ⟨1, _⟩ => show win0_3.index t (1 : Fin 2) * 512 + 1 * o.val = o.val; omega

/-- … and the bias row. -/
theorem bias_block_entry (t : Fin cfg0.N) (A : FVec Ideal S1x512 .f32) (o : Fin 512)
    (h0 : win0_4.index t (0 : Fin 2) = 0) (h1 : win0_4.index t (1 : Fin 2) = 0) :
    ((cfg0.win 4).blk t).view.read (Elt Ideal) A (ix2 (0 : Fin 1) o) = A (ix2 (0 : Fin 1) o) := by
  rw [View.read_apply, cast_eq]
  congr 1
  funext a; apply Fin.ext
  match a with
  | ⟨0, _⟩ => show win0_4.index t (0 : Fin 2) * 1 + 1 * 0 = 0; omega
  | ⟨1, _⟩ => show win0_4.index t (1 : Fin 2) * 512 + 1 * o.val = o.val; omega

/-- What point `t` writes back is the layer read through rows `2000 t … 2000 t + 1999`. -/
theorem flushed_eq (c : Dev nD) (t : Fin cfg0.N) :
    (dats m 0 c).flushed 5 t = ((cfg0.win 5).blk t).view.read (Elt Ideal) (result m c) := by
  rw [flushed5]
  unfold out0_5
  rw [View.canon_unit_zero origin]
  simp only [View.ld_unit_zero (S := S2000x128) origin, View.ld_unit_zero (S := S128x512) origin, View.ld_unit_zero (S := S1x512) origin]
  obtain ⟨e50, e51, e00, e01, e10, e11, e20, e21, e30, e31, e40, e41⟩ := block_indices t
  funext j
  obtain ⟨r, o, rfl⟩ : ∃ (r : Fin 2000) (o : Fin 512), j = ix2 r o := ⟨j 0, j 1, eq_ix2 j⟩
  rw [View.read_apply]
  refine (cut_entry t _ r o).trans ?_
  rw [cast_eq]
  unfold result
  rw [Cert.GraphConv.lin_apply]
  have hi0 : ((((View.whole main_v20).slice ((win0 5).rect t)).emb (ix2 r o)) 0).val = win0_5.index t (0 : Fin 2) * 2000 + 1 * r.val := rfl
  have hi1 : ((((View.whole main_v20).slice ((win0 5).rect t)).emb (ix2 r o)) 1).val = win0_5.index t (1 : Fin 2) * 512 + 1 * o.val := rfl
  generalize ((View.whole main_v20).slice ((win0 5).rect t)).emb (ix2 r o) = i at hi0 hi1 ⊢
  have hcol : i 1 = o := Fin.ext (by rw [hi1]; omega)
  rw [hcol]
  refine Cert.GraphConv.Block.stored_entry_eq_layer (V m c main_v16) (m ((c : Thread nD τ).loc main_arg0)) (m ((c : Thread nD τ).loc main_arg3)) (m ((c : Thread nD τ).loc main_arg5)) (m ((c : Thread nD τ).loc main_arg4))
    (iblk m c 0 t) (iblk m c 1 t) (iblk m c 2 t) (iblk m c 3 t) (iblk m c 4 t) r o (i 0) ?_ ?_ ?_ ?_ ?_
  · intro k
    unfold iblk
    exact agg_block_entry t (V m c (Pipeline.arrRef spec0 0)) r k (i 0) (by rw [hi0]; omega) e01
  · intro k
    unfold iblk
    exact (x_block_entry t (V m c (Pipeline.arrRef spec0 1)) r k (i 0) (by rw [hi0]; omega) e11).trans
      (congrFun (V_main_arg0 m c) (ix2 (i 0) k))
  · intro k
    unfold iblk
    exact (wl_block_entry t (V m c (Pipeline.arrRef spec0 2)) k o e20 e21).trans
      ((congrFun (wl_transposed m c) (ix2 k o)).trans (transpose_ix2_apply _ _ k o))
  · intro k
    unfold iblk
    exact (wr_block_entry t (V m c (Pipeline.arrRef spec0 3)) k o e30 e31).trans
      ((congrFun (wr_transposed m c) (ix2 k o)).trans (transpose_ix2_apply _ _ k o))
  · unfold iblk
    exact (bias_block_entry t (V m c (Pipeline.arrRef spec0 4)) o e40 e41).trans
      ((congrFun (bias_row m c) (ix2 (0 : Fin 1) o)).trans (shapeCast_a_1a_apply _ _ (0 : Fin 1) o))

/-- An index of the output is in point `t`'s block iff each coordinate is in the block's range on its axis. -/
theorem mem_block (t : Fin cfg0.N) (i : S100000x512.Idx) :
    i ∈ ((cfg0.win 5).blk t).view.set ↔ ∀ a : Fin 2, win0_5.index t a * S2000x512.size a ≤ (i a).val ∧ (i a).val < win0_5.index t a * S2000x512.size a + S2000x512.size a := by
  show i ∈ ((View.whole main_v20).slice (win0_5.rect t)).set ↔ _
  rw [View.set_slice_whole, Rect.mem_set_unit]
  exact Iff.rfl

/-- Every output index lies in some point's block: row `n` in block `n / 2000`. -/
theorem covered (i : S100000x512.Idx) :
    ∃ t : Fin cfg0.N, (cfg0.win 5).flush t = true ∧ i ∈ ((cfg0.win 5).blk t).view.set := by
  have hi0 : (i 0).val < 100000 := (i 0).isLt
  have hi1 : (i 1).val < 512 := (i 1).isLt
  have hN : cfg0.N = 50 := N_0
  have ht : (i 0).val / 2000 < cfg0.N := by rw [hN]; omega
  obtain ⟨e50, e51, -⟩ := block_indices ⟨(i 0).val / 2000, ht⟩
  have e50' : win0_5.index ⟨(i 0).val / 2000, ht⟩ (0 : Fin 2) = (i 0).val / 2000 := e50
  refine ⟨⟨(i 0).val / 2000, ht⟩, flush0_5 _, ?_⟩
  rw [mem_block]
  intro a
  match a with
  | ⟨0, _⟩ => show win0_5.index ⟨(i 0).val / 2000, ht⟩ (0 : Fin 2) * 2000 ≤ (i 0).val ∧ (i 0).val < win0_5.index ⟨(i 0).val / 2000, ht⟩ (0 : Fin 2) * 2000 + 2000; omega
  | ⟨1, _⟩ => show win0_5.index ⟨(i 0).val / 2000, ht⟩ (1 : Fin 2) * 512 ≤ (i 1).val ∧ (i 1).val < win0_5.index ⟨(i 0).val / 2000, ht⟩ (1 : Fin 2) * 512 + 512; omega

/-- So the output array ends holding the layer. -/
theorem final (c : Dev nD) : (dats m 0 c).arrAt 5 cfg0.N = result m c :=
  (dats m 0 c).arrAt_eq_of_cover 5 (result m c) (fun t _ => flushed_eq m c t) covered

/-- The kernel's run: the output array at the layer of the aggregate the host prefix computes, the arguments unchanged. -/
theorem run : θ_run defs (onTc (τ := τ) (main (F := Ideal))) ⟨m, fun _ => 0, ρ⟩ fun r => ∀ c : Dev nD,
      r.2.mem ((c : Thread nD τ).loc main_v20)
        = Cert.GraphConv.lin (aggOf (m ((c : Thread nD τ).loc main_arg0)) (m ((c : Thread nD τ).loc main_arg1)) (m ((c : Thread nD τ).loc main_arg2)))
            (m ((c : Thread nD τ).loc main_arg0)) (m ((c : Thread nD τ).loc main_arg3)) (m ((c : Thread nD τ).loc main_arg5)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1.trans (final m c)).trans (by rw [← agg_eq m c]), (h c).2⟩)
    (run_blocks m ρ)

end Cert.GraphConv.Kernel

end
-- ==== Proof.ReferenceLayer.lean ====
/-
  The reference's last six host operations, read at an index, are the linear layer of `LinearLayer.lean` applied to
  whatever its scatter-add produced: `dot_general` contracting axis 1 of both operands is `∑ₖ l[n, k] · w[o, k]`, the
  bias is broadcast over the rows through a 1 × 512 intermediate, and the two `add`s group the terms as
  `(agg·W_lᵀ + b) + x·W_rᵀ`. The aggregate itself (gather, scale by the edge weight, scatter-add) is kept as one
  unopened term: the kernel's host prefix computes the same term.
-/
import proofs.«131312_j54778012893227_1_alg».proof.Proof.Gen.ReferenceIdeal.Read
import proofs.«131312_j54778012893227_1_alg».proof.Proof.LinearLayer

noncomputable section

open scoped BigOperators

namespace Cert.GraphConv.Ref

open Cert.ReferenceIdeal Cert.ReferenceIdeal.Read Idealize.ShloMosaic Idealize.ShloMosaic.ValueIdx

/-- The aggregate's product reads row `n` of the aggregate … -/
theorem agg_row (i : S100000x512.Idx) (k : Fin 128) : lidx_main_v17 i k = ix2 (n0 := 100000) (i 0) k :=
  funext fun a => by match a with | ⟨0, _⟩ => rfl | ⟨1, _⟩ => rfl
/-- … against row `o` of `W_l`. -/
theorem wl_row (i : S100000x512.Idx) (k : Fin 128) : ridx_main_v17 i k = ix2 (n0 := 512) (i 1) k :=
  funext fun a => by match a with | ⟨0, _⟩ => rfl | ⟨1, _⟩ => rfl
/-- The node's own product reads row `n` of the features … -/
theorem x_row (i : S100000x512.Idx) (k : Fin 128) : lidx_main_v21 i k = ix2 (n0 := 100000) (i 0) k :=
  funext fun a => by match a with | ⟨0, _⟩ => rfl | ⟨1, _⟩ => rfl
/-- … against row `o` of `W_r`. -/
theorem wr_row (i : S100000x512.Idx) (k : Fin 128) : ridx_main_v21 i k = ix2 (n0 := 512) (i 1) k :=
  funext fun a => by match a with | ⟨0, _⟩ => rfl | ⟨1, _⟩ => rfl
/-- Through both broadcasts the bias is read at the output feature. -/
theorem bias_at (i : S100000x512.Idx) : idx_main_v18 (idx_main_v19 i) = ix1 (n := 512) (i 1) :=
  funext fun a => by match a with | ⟨0, _⟩ => rfl

/-- The reference's result is the linear layer of its own aggregate. -/
theorem result_eq (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S512x128, .f32⟩ : BufTy).Contents (Elt Ideal))
    (x4 : (⟨S512, .f32⟩ : BufTy).Contents (Elt Ideal)) (x5 : (⟨S512x128, .f32⟩ : BufTy).Contents (Elt Ideal)) :
    val_main_v22 (F := Ideal) x0 x1 x2 x3 x4 x5 = Cert.GraphConv.lin (val_main_v16 (F := Ideal) x0 x1 x2) x0 x3 x5 x4 := by
  funext i
  rw [val_main_v22_apply, val_main_v20_apply, val_main_v17_apply, val_main_v19_apply, val_main_v18_apply,
    val_main_v21_apply, Cert.GraphConv.lin_apply]
  simp only [agg_row, wl_row, x_row, wr_row, bias_at, Ideal.addf_def]
  rfl

end Cert.GraphConv.Ref

end
-- ==== Proof.lean ====
/-
  A graph-convolution layer: `agg = segment_sum(edge_weight · x[row], col)` and then
  `out = agg · W_lᵀ + b + x · W_rᵀ`, over 100000 nodes, 1600000 edges, 128 input and 512 output features.

  Both programs compute the aggregate with the same host operations (negative source indices wrapped, the source
  rows gathered, scaled by the edge weight, added into zero at the destination rows): one term of the arguments,
  never opened. They differ after it. The reference takes two `dot_general`s contracting axis 1 of both operands
  and groups `(agg·W_lᵀ + b) + x·W_rᵀ`. The kernel transposes the weights and reshapes the bias on the host, and in
  50 row blocks of 2000 computes `(agg·W_lᵀ + x·W_rᵀ) + b`, its casts to bf16 the identity on extended reals and each
  product accumulated into zero. Entry by entry both are the same three extended reals added in two groupings,
  equal because addition of extended reals is commutative and associative; no input needs to be finite.

  The frames of both kernel programs are the generated ones; the reference's frame is its generated run with the
  result dropped; the idealization rewrote nothing, so it is preserved trivially.
-/
import proofs.«131312_j54778012893227_1_alg».proof.Defs
import proofs.«131312_j54778012893227_1_alg».proof.Proof.Gen.Kernel
import proofs.«131312_j54778012893227_1_alg».proof.Proof.Gen.Kernel.Skeleton
import proofs.«131312_j54778012893227_1_alg».proof.Proof.Gen.Kernel.Launch
import proofs.«131312_j54778012893227_1_alg».proof.Proof.Gen.Kernel.Points
import proofs.«131312_j54778012893227_1_alg».proof.Proof.Gen.Kernel.Frame
import proofs.«131312_j54778012893227_1_alg».proof.Proof.Gen.KernelIdeal
import proofs.«131312_j54778012893227_1_alg».proof.Proof.Gen.KernelIdeal.Skeleton
import proofs.«131312_j54778012893227_1_alg».proof.Proof.Gen.KernelIdeal.Launch
import proofs.«131312_j54778012893227_1_alg».proof.Proof.Gen.KernelIdeal.Points
import proofs.«131312_j54778012893227_1_alg».proof.Proof.Gen.KernelIdeal.Frame
import proofs.«131312_j54778012893227_1_alg».proof.Proof.Gen.ReferenceIdeal
import proofs.«131312_j54778012893227_1_alg».proof.Proof.Gen.Pre_finite_inputs
import proofs.«131312_j54778012893227_1_alg».proof.Proof.Gen.KernelIdeal.Value
import proofs.«131312_j54778012893227_1_alg».proof.Proof.Gen.ReferenceIdeal.Run
import proofs.«131312_j54778012893227_1_alg».proof.Proof.Gen.ReferenceIdeal.Read
import proofs.«131312_j54778012893227_1_alg».proof.Proof.KernelArray
import proofs.«131312_j54778012893227_1_alg».proof.Proof.ReferenceLayer
import Idealize.ShloMosaic.Adequacy
import Idealize.ShloMosaic.Init

noncomputable section

namespace Cert.Proof

open Idealize.ShloMosaic Idealize.SL.Sem

/-- The kernel's host prefix and the reference compute the aggregate by the same operations of the same arguments. -/
theorem same_aggregate (x0 : (⟨Cert.KernelIdeal.S100000x128, .f32⟩ : BufTy).Contents (Elt Ideal))
    (x1 : (⟨Cert.KernelIdeal.S2x1600000, .i32⟩ : BufTy).Contents (Elt Ideal))
    (x2 : (⟨Cert.KernelIdeal.S1600000, .f32⟩ : BufTy).Contents (Elt Ideal)) :
    Cert.ReferenceIdeal.Read.val_main_v16 (F := Ideal) x0 x1 x2 = Cert.GraphConv.Kernel.aggOf x0 x1 x2 := rfl

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the output array at the linear layer of the same aggregate of arguments that agree. -/
theorem algebraic : Cert.algebraic_KernelIdeal_ReferenceIdeal := by
  intro m ρ m' ρ' _ hagree
  refine ⟨_, Cert.GraphConv.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.GraphConv.Ref.result_eq, same_aggregate,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
